-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x128 : Shape := ⟨2, ![1024, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256 .f32) (main_arg8 : FVec F S256x1 .f32) (main_arg9 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg8
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S512x128 .f32) (main_arg5 : FVec F S128 .f32) (main_arg6 : FVec F S128x256 .f32) (main_arg7 : FVec F S256 .f32) (main_arg8 : FVec F S256x1 .f32) (main_arg9 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x1024 .f32) (main_arg1 : FVec F S1024x128 .f32) (main_arg2 : FVec F S128x512 .f32) (main_arg3 : FVec F S512 .f32) (main_arg4 : FVec F S512x128 .f32) (main_arg5 : FVec F S128 .f32) (main_arg6 : FVec F S128x256 .f32) (main_arg7 : FVec F S256 .f32) (main_arg8 : FVec F S256x1 .f32) (main_arg9 : FVec F S1 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_v13 main_v16
-- ==== Kernel.lean ====
abbrev S1024x1024 : Shape := ⟨2, ![1024, 1024]⟩
abbrev S1024x128 : Shape := ⟨2, ![1024, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x512 : Shape := ⟨2, ![1, 512]⟩
abbrev S1x128 : Shape := ⟨2, ![1, 128]⟩
abbrev S1x256 : Shape := ⟨2, ![1, 256]⟩
abbrev S1x1 : Shape := ⟨2, ![1, 1]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 16
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S1x512, .f32⟩
  | .hbm, ⟨11, _⟩ => ⟨S1x128, .f32⟩
  | .hbm, ⟨12, _⟩ => ⟨S1x256, .f32⟩
  | .hbm, ⟨13, _⟩ => ⟨S1x1, .f32⟩
  | .hbm, ⟨14, _⟩ => ⟨S1024x128, .f32⟩
  | .hbm, ⟨15, _⟩ => ⟨S1024x1, .f32⟩
  | .local _ .vmem, ⟨0, _⟩ => ⟨S1024x1024, .f32⟩
  | .local _ .vmem, ⟨1, _⟩ => ⟨S1024x128, .f32⟩
  | .local _ .vmem, ⟨2, _⟩ => ⟨S128x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S128x256, .f32⟩
  | .local _ .vmem, ⟨7, _⟩ => ⟨S1x256, .f32⟩
  | .local _ .vmem, ⟨8, _⟩ => ⟨S256x1, .f32⟩
  | .local _ .vmem, ⟨9, _⟩ => ⟨S1x1, .f32⟩
  | .local _ .vmem, ⟨10, _⟩ => ⟨S1024x128, .f32⟩
  | .local _ .vmem, ⟨11, _⟩ => ⟨S1024x1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

class Facts₀ : Prop where
  shapeCasts_S512_S1x512 : S512.ShapeCasts S1x512
  shapeCasts_S128_S1x128 : S128.ShapeCasts S1x128
  shapeCasts_S256_S1x256 : S256.ShapeCasts S1x256
  shapeCasts_S1_S1x1 : S1.ShapeCasts S1x1
  inb_S1024x1024_S1024x1024_0_0 : ∀ a, (![0, 0] : Fin 2 → Nat) a + S1024x1024.size a ≤ S1024x1024.size a
  h_S1024x1024 : 0 < S1024x1024.numel
  iota_S1024x1024_d0_w32 : S1024x1024.Iotas .tc 32 [0]
  iota_S1024x1024_d1_w32 : S1024x1024.Iotas .tc 32 [1]
  inb_S1024x128_S1024x128_0_0 : ∀ a, (![0, 0] : Fin 2 → Nat) a + S1024x128.size a ≤ S1024x128.size a
  h_S1024x128 : 0 < S1024x128.numel
  inb_S128x512_S128x512_0_0 : ∀ a, (![0, 0] : Fin 2 → Nat) a + S128x512.size a ≤ S128x512.size a
  h_S128x512 : 0 < S128x512.numel
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1024_S1024x1_S1024x1_0_0_1_1_n_n_wf : DotDims.WF S1024x1024 S1024x1 S1024x1 [0] [0] [1] [1] [] []
  dot_S1024x128_S128x512_S1024x512_1_0_0_1_n_n_wf : DotDims.WF S1024x128 S128x512 S1024x512 [1] [0] [0] [1] [] []
  dot_S1024x1024_S1024x512_S1024x512_0_0_1_1_n_n_wf : DotDims.WF S1024x1024 S1024x512 S1024x512 [0] [0] [1] [1] [] []
  dot_S1024x512_S512x128_S1024x128_1_0_0_1_n_n_wf : DotDims.WF S1024x512 S512x128 S1024x128 [1] [0] [0] [1] [] []
  dot_S1024x1024_S1024x128_S1024x128_0_0_1_1_n_n_wf : DotDims.WF S1024x1024 S1024x128 S1024x128 [0] [0] [1] [1] [] []
  dot_S1024x128_S128x256_S1024x256_1_0_0_1_n_n_wf : DotDims.WF S1024x128 S128x256 S1024x256 [1] [0] [0] [1] [] []
  dot_S1024x256_S256x1_S1024x1_1_0_0_1_n_n_wf : DotDims.WF S1024x256 S256x1 S1024x1 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole

variable [Facts₀]

def dot_S1024x1024_S1024x1_S1024x1_0_0_1_1_n_n : DotDims S1024x1024 S1024x1 S1024x1 where
  lhsContracting := [0]
  rhsContracting := [0]
  lhsNonContracting := [1]
  rhsNonContracting := [1]
  lhsBatch := []
  rhsBatch := []
  wf := dot_S1024x1024_S1024x1_S1024x1_0_0_1_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v2) false false (stage0_7 0) (sem0_7 0) (Memref.isWhole_whole _) (hstage0_7 0)

abbrev win0_8 : Pipeline.Window sig grid0 :=
  Pipeline.Window.whole (Memref.whole main_arg8) false false (stage0_8 0) (sem0_8 0) (Memref.isWhole_whole _) (hstage0_8 0)

abbrev win0_9 : Pipeline.Window sig grid0 :=
  Pipeline.Window.whole (Memref.whole main_v3) false false (stage0_9 0) (sem0_9 0) (Memref.isWhole_whole _) (hstage0_9 0)

abbrev win0_10 : Pipeline.Window sig grid0 :=
  Pipeline.Window.whole (Memref.whole main_v4_0) true false (stage0_10 0) (sem0_10 0) (Memref.isWhole_whole _) (hstage0_10 0)

abbrev win0_11 : Pipeline.Window sig grid0 :=
  Pipeline.Window.whole (Memref.whole main_v4_1) true false (stage0_11 0) (sem0_11 0) (Memref.isWhole_whole _) (hstage0_11 0)

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x128 : Shape := ⟨2, ![1024, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩
abbrev S1024 : Shape := ⟨1, ![1024]⟩
abbrev S1024x512 : Shape := ⟨2, ![1024, 512]⟩
abbrev S1024x1 : Shape := ⟨2, ![1024, 1]⟩
abbrev S1x512 : Shape := ⟨2, ![1, 512]⟩
abbrev S1x128 : Shape := ⟨2, ![1, 128]⟩
abbrev S1024x256 : Shape := ⟨2, ![1024, 256]⟩
abbrev S1x256 : Shape := ⟨2, ![1, 256]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S1024x1024, .i32⟩
  | .hbm, ⟨11, _⟩ => ⟨S1024x1024, .i32⟩
  | .hbm, ⟨12, _⟩ => ⟨S_, .i32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .f32⟩
  | .hbm, ⟨17, _⟩ => ⟨S1024x1024, .f32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i32⟩
  | .hbm, ⟨23, _⟩ => ⟨S1024x1024, .i1⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .i1⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024x512, .f32⟩
  | .hbm, ⟨40, _⟩ => ⟨S1024x1, .f32⟩
  | .hbm, ⟨41, _⟩ => ⟨S1024x1024, .f32⟩
  | .hbm, ⟨42, _⟩ => ⟨S1024x1, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S1024x512, .f32⟩
  | .hbm, ⟨48, _⟩ => ⟨S1x512, .f32⟩
  | .hbm, ⟨49, _⟩ => ⟨S1024x512, .f32⟩
  | .hbm, ⟨50, _⟩ => ⟨S1024x512, .f32⟩
  | .hbm, ⟨51, _⟩ => ⟨S_, .f32⟩
  | .hbm, ⟨52, _⟩ => ⟨S1024x512, .f32⟩
  | .hbm, ⟨53, _⟩ => ⟨S1024x512, .f32⟩
  | .hbm, ⟨54, _⟩ => ⟨S1024x1024, .i32⟩
  | .hbm, ⟨55, _⟩ => ⟨S1024x1024, .i32⟩
  | .hbm, ⟨56, _⟩ => ⟨S_, .i32⟩
  | .hbm, ⟨57, _⟩ => ⟨S1024x1024, .i32⟩
  | .hbm, ⟨58, _⟩ => ⟨S1024x1024, .i32⟩
  | .hbm, ⟨59, _⟩ => ⟨S1024x1024, .i1⟩
  | .hbm, ⟨60, _⟩ => ⟨S1024x1024, .f32⟩
  | .hbm, ⟨61, _⟩ => ⟨S1024x1024, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .i1⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1024x128, .f32⟩
  | .hbm, ⟨76, _⟩ => ⟨S1024x1, .f32⟩
  | .hbm, ⟨77, _⟩ => ⟨S1024x1024, .f32⟩
  | .hbm, ⟨78, _⟩ => ⟨S1024x1, .f32⟩
  | .hbm, ⟨79, _⟩ => ⟨S1024x128, .f32⟩
  | .hbm, ⟨80, _⟩ => ⟨S1024x128, .f32⟩
  | .hbm, ⟨81, _⟩ => ⟨S1024x128, .f32⟩
  | .hbm, ⟨82, _⟩ => ⟨S1024x128, .f32⟩
  | .hbm, ⟨83, _⟩ => ⟨S1024x128, .f32⟩
  | .hbm, ⟨84, _⟩ => ⟨S1x128, .f32⟩
  | .hbm, ⟨85, _⟩ => ⟨S1024x128, .f32⟩
  | .hbm, ⟨86, _⟩ => ⟨S1024x128, .f32⟩
  | .hbm, ⟨87, _⟩ => ⟨S_, .f32⟩
  | .hbm, ⟨88, _⟩ => ⟨S1024x128, .f32⟩
  | .hbm, ⟨89, _⟩ => ⟨S1024x128, .f32⟩
  | .hbm, ⟨90, _⟩ => ⟨S1024x256, .f32⟩
  | .hbm, ⟨91, _⟩ => ⟨S1x256, .f32⟩
  | .hbm, ⟨92, _⟩ => ⟨S1024x256, .f32⟩
  | .hbm, ⟨93, _⟩ => ⟨S1024x256, .f32⟩
  | .hbm, ⟨94, _⟩ => ⟨S_, .f32⟩
  | .hbm, ⟨95, _⟩ => ⟨S1024x256, .f32⟩
  | .hbm, ⟨96, _⟩ => ⟨S1024x256, .f32⟩
  | .hbm, ⟨97, _⟩ => ⟨S1024x1, .f32⟩
  | .hbm, ⟨98, _⟩ => ⟨S1x1, .f32⟩
  | .hbm, ⟨99, _⟩ => ⟨S1024x1, .f32⟩
  | .hbm, ⟨100, _⟩ => ⟨S1024x1, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call3_cst : Ref sig .tc := ⟨.hbm, 87, rfl⟩
abbrev main_call3_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call4_cst : Ref sig .tc := ⟨.hbm, 94, rfl⟩
abbrev main_call4_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S1024_d0 : S1024x1024.ReducesTo [0] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  transposes_S1024x1024_S1024x1024_1_0 : S1024x1024.Transposes [1, 0] S1024x1024
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S1024x1_S1024x128_0_1 : S1024x1.BroadcastsInDim S1024x128 (![0, 1] : Fin 2 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x128_S128x512_S1024x512_1_0_0_1_n_n_wf : DotDims.WF S1024x128 S128x512 S1024x512 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  dot_S1024x1024_S1024x128_S1024x128_1_0_0_1_n_n_wf : DotDims.WF S1024x1024 S1024x128 S1024x128 [1] [0] [0] [1] [] []
  dot_S1024x128_S128x256_S1024x256_1_0_0_1_n_n_wf : DotDims.WF S1024x128 S128x256 S1024x256 [1] [0] [0] [1] [] []
  dot_S1024x256_S256x1_S1024x1_1_0_0_1_n_n_wf : DotDims.WF S1024x256 S256x1 S1024x1 [1] [0] [0] [1] [] []

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

class Facts : Prop extends Facts₀ where

variable [Facts]
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.LibColDims.lean ====
/-
  Dimension numbers over symbolic extents, each read in coordinates:
  * the contraction `Aᵀ · B` of `A : [K, M]` with `B : [K, N]` on the row axis of BOTH operands is, at the
    output entry `(p, q)`, the sum over the shared row `k` of `A (k, p) · B (k, q)`: a product with the
    transposed left operand, written without a transpose;
  * an array with one column, `[a, 1]`, broadcast along its rows to `[a, b]` reads, at `(p, c)`, its row `p`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.ColDims

open Idealize.ShloMosaic Idealize.ShloMosaic.ValueIdx

/-! ## Both operands contracted on their row axis -/

/-- The dimension numbers of `Aᵀ · B` for `A : [K, M]` and `B : [K, N]`: axis `0` of each operand is contracted, the
    output's rows are the left operand's columns and its columns the right operand's. -/
abbrev colContract (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable {K M N : Nat} (wf : DotDims.WF ⟨2, ![K, M]⟩ ⟨2, ![K, N]⟩ ⟨2, ![M, N]⟩ [0] [0] [1] [1] [] [])

/-- The left operand's column coordinate is the output's row, whatever the contraction position. -/
theorem col_lhsIdx_col (p : Fin M) (q : Fin N) (k : (colContract K M N wf).contr.Idx) :
    ((colContract K M N wf).lhsIdx (ix2 p q) k 1).val = p.val := rfl

/-- The right operand's column coordinate is the output's column, whatever the contraction position. -/
theorem col_rhsIdx_col (p : Fin M) (q : Fin N) (k : (colContract K M N wf).contr.Idx) :
    ((colContract K M N wf).rhsIdx (ix2 p q) k 1).val = q.val := rfl

/-- The contraction sum at the output entry `(p, q)` runs over the `K` products `lhs (k, p) · rhs (k, q)`. -/
theorem col_sum (lhs : (⟨2, ![K, M]⟩ : Shape).Idx → EReal) (rhs : (⟨2, ![K, N]⟩ : Shape).Idx → EReal)
    (p : Fin M) (q : Fin N) :
    ∑ k : (colContract K M N wf).contr.Idx,
        lhs ((colContract K M N wf).lhsIdx (ix2 p q) k) * rhs ((colContract K M N wf).rhsIdx (ix2 p q) k)
      = ∑ k : Fin K, lhs (ix2 k p) * rhs (ix2 k q) := by
  -- re-index the sum by the one contracted coordinate
  rw [← Equiv.sum_comp (contrEquiv1 (colContract K M N wf) K rfl rfl).symm]
  refine Finset.sum_congr rfl fun k _ => ?_
  -- the left operand is read at (k, p): its row the contracted coordinate, its column the output's row
  have hl : (colContract K M N wf).lhsIdx (ix2 p q) ((contrEquiv1 (colContract K M N wf) K rfl rfl).symm k) = ix2 k p := by
    funext a
    refine Fin.ext ?_
    match a with
    | ⟨0, _⟩ =>
      exact ((colContract K M N wf).lhsIdx_val_of_single (cl := 0) rfl _ _).trans
        (contrEquiv1_symm_val (colContract K M N wf) K rfl rfl k)
    | ⟨1, _⟩ => exact col_lhsIdx_col wf p q _
  -- the right operand is read at (k, q): its row the contracted coordinate, its column the output's column
  have hr : (colContract K M N wf).rhsIdx (ix2 p q) ((contrEquiv1 (colContract K M N wf) K rfl rfl).symm k) = ix2 k q := by
    funext a
    refine Fin.ext ?_
    match a with
    | ⟨0, _⟩ =>
      exact ((colContract K M N wf).rhsIdx_val_of_single (cr := 0) rfl _ _).trans
        (contrEquiv1_symm_val (colContract K M N wf) K rfl rfl k)
    | ⟨1, _⟩ => exact col_rhsIdx_col wf p q _
  rw [hl, hr]

/-- A matrix-unit product `Aᵀ · B` into the zero accumulator, at the ideal values, entry by entry. -/
theorem matmul_col_zero_apply {φ₁ φ₂ : FTy} (prec : Option ContractPrecision)
    (lhs : FVec Ideal ⟨2, ![K, M]⟩ φ₁) (rhs : FVec Ideal ⟨2, ![K, N]⟩ φ₂) (p : Fin M) (q : Fin N) :
    FloatOps.matmul (colContract K M N wf) prec lhs rhs (constant ⟨2, ![M, N]⟩ .f32 0x00000000#32) (ix2 p q)
      = ∑ k : Fin K, lhs (ix2 k p) * rhs (ix2 k q) := by
  rw [Ideal.matmul_constant_zero_apply]
  exact col_sum wf lhs rhs p q

/-! ## One column broadcast along the rows -/

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColDims

end
-- ==== Proof.Consts.lean ====
/-
  The float words the two programs spell, as the extended reals they denote: `0`, `1` and `2`, and the two values
  a one-bit word converts to.
-/
import Idealize.ShloMosaic.PureOps.Ideal
import Idealize.ShloMosaic.PureOps.Ideal.Laws

noncomputable section

namespace Cert.Consts

open Idealize.ShloMosaic

/-- The word of `+0.0` denotes `0`. -/
theorem ofBits_zero : Ideal.ofBits .f32 0x00000000#32 = 0 := Ideal.ofBits_zero_f32

/-- The word of `1.0` denotes `1`. -/
theorem ofBits_one : Ideal.ofBits .f32 0x3F800000#32 = 1 := by
  simp [Ideal.ofBits, Ideal.ieee, -EReal.coe_mul]; norm_num

/-- The word of `2.0` denotes `2`. -/
theorem ofBits_two : Ideal.ofBits .f32 0x40000000#32 = 2 := by
  simp [Ideal.ofBits, Ideal.ieee, -EReal.coe_mul]; norm_num; norm_cast

/-- A set bit converts to `1`. -/
theorem uitofp_one : (FloatOps.uitofp (F := Ideal) .f32 (1#1 : BitVec 1)) = 1 := by
  show (((1#1 : BitVec 1).toNat : ℝ) : EReal) = 1
  norm_num

/-- A cleared bit converts to `0`. -/
theorem uitofp_zero : (FloatOps.uitofp (F := Ideal) .f32 (0#1 : BitVec 1)) = 0 := by
  show (((0#1 : BitVec 1).toNat : ℝ) : EReal) = 0
  norm_num

end Cert.Consts

end
-- ==== Proof.KernelStages.lean ====
/-
  The kernel's arithmetic, stage by stage, at the ideal values.
  With `A` the adjacency, the body forms `Â = A + 2·I` (both self loops at once), the column sums
  `deg j = ∑ᵢ Â i j` as the product `Âᵀ · 1`, and `dis j = deg j ^ (-1/2)` where `deg j > 0`, `0` elsewhere. A graph
  convolution of features `X` is then `dis ⊙ (Âᵀ · (dis ⊙ X))`, the row scaling written as a product with the
  one-column array `dis` broadcast along the rows, and a layer adds a bias row and clamps at `0`.
  Each stage is named here, the body's two payloads are compositions of the stages, and each stage is read at an
  entry `(p, q)`.
-/
import proofs.«114461_g70214125355148_fold_wed_m_1087_2_alg».proof.Proof.Gen.KernelIdeal.Skeleton
import proofs.«114461_g70214125355148_fold_wed_m_1087_2_alg».proof.Proof.LibRowDims
import proofs.«114461_g70214125355148_fold_wed_m_1087_2_alg».proof.Proof.LibColDims
import proofs.«114461_g70214125355148_fold_wed_m_1087_2_alg».proof.Proof.Consts
import Idealize.ShloMosaic.Lib.ValueLayout

noncomputable section

open scoped BigOperators

namespace Cert.KernelIdeal.Stages

open Cert.KernelIdeal Cert.KernelIdeal.Gen Idealize.ShloMosaic Idealize.ShloMosaic.ValueIdx
open Idealize.ShloMosaic.RowDims Idealize.ShloMosaic.ColDims

/-! ## The stages -/

/-- `Â = A + 2·I`: the diagonal mask is the comparison of the two coordinate counters. -/
def selfLooped (a : Vec Ideal S1024x1024 .f32) : FVec Ideal S1024x1024 .f32 :=
  addf a (select (cmpi .eq (iota .tc S1024x1024 32 [0] iota_S1024x1024_d0_w32) (iota .tc S1024x1024 32 [1] iota_S1024x1024_d1_w32))
    (broadcast S1024x1024 (Scalar.ofBits .f32 0x40000000#32)) (broadcast S1024x1024 (Scalar.ofBits .f32 0x00000000#32)))

/-- The column sums of `Â`, as the one-column array `Âᵀ · 1`. -/
def degree (a : Vec Ideal S1024x1024 .f32) : FVec Ideal S1024x1 .f32 :=
  matmul dot_S1024x1024_S1024x1_S1024x1_0_0_1_1_n_n none (selfLooped a)
    (broadcast S1024x1 (Scalar.ofBits .f32 0x3F800000#32)) (constant S1024x1 .f32 0x00000000#32)

/-- `deg ^ (-1/2)` where the degree is positive, `0` elsewhere. -/
def invSqrtDeg (a : Vec Ideal S1024x1024 .f32) : FVec Ideal S1024x1 .f32 :=
  select (cmpf .ogt (degree a) (broadcast S1024x1 (Scalar.ofBits .f32 0x00000000#32))) (rsqrt (degree a))
    (broadcast S1024x1 (Scalar.ofBits .f32 0x00000000#32))

/-- The normalized aggregation `dis ⊙ (Âᵀ · (dis ⊙ X))` of features of any width `C`. -/
def aggregate {C : Nat} (hb : S1024x1.Broadcasts ⟨2, ![1024, C]⟩)
    (wf : DotDims.WF ⟨2, ![1024, 1024]⟩ ⟨2, ![1024, C]⟩ ⟨2, ![1024, C]⟩ [0] [0] [1] [1] [] [])
    (a : Vec Ideal S1024x1024 .f32) (x : FVec Ideal ⟨2, ![1024, C]⟩ .f32) : FVec Ideal ⟨2, ![1024, C]⟩ .f32 :=
  mulf (broadcastTo ⟨2, ![1024, C]⟩ (invSqrtDeg a) hb)
    (matmul (colContract 1024 1024 C wf) none (selfLooped a) (mulf (broadcastTo ⟨2, ![1024, C]⟩ (invSqrtDeg a) hb) x)
      (constant ⟨2, ![1024, C]⟩ .f32 0x00000000#32))

/-- A bias row added to every row. -/
def addRow {R C : Nat} (hs : (⟨2, ![1, C]⟩ : Shape).ShapeCasts ⟨2, ![1, C]⟩) (hb : (⟨2, ![1, C]⟩ : Shape).Broadcasts ⟨2, ![R, C]⟩)
    (z : FVec Ideal ⟨2, ![R, C]⟩ .f32) (b : Vec Ideal ⟨2, ![1, C]⟩ .f32) : FVec Ideal ⟨2, ![R, C]⟩ .f32 :=
  addf z (broadcastTo ⟨2, ![R, C]⟩ (shapeCast ⟨2, ![1, C]⟩ b hs) hb)

/-- The clamp at `0`. -/
def clamp0 {R C : Nat} (z : FVec Ideal ⟨2, ![R, C]⟩ .f32) : FVec Ideal ⟨2, ![R, C]⟩ .f32 :=
  maximumf z (broadcast ⟨2, ![R, C]⟩ (Scalar.ofBits .f32 0x00000000#32))

/-- A plain product into the zero accumulator. -/
def prod {M K N : Nat} (x : FVec Ideal ⟨2, ![M, K]⟩ .f32) (w : FVec Ideal ⟨2, ![K, N]⟩ .f32) : FVec Ideal ⟨2, ![M, N]⟩ .f32 :=
  matmul (DotDims.plain M K N) none x w (constant ⟨2, ![M, N]⟩ .f32 0x00000000#32)

/-! ## The payloads are compositions of the stages -/

/-- The first layer's output: the hidden features `[1024, 512]`. -/
def hiddenFeatures (a : Vec Ideal S1024x1024 .f32) (e : Vec Ideal S1024x128 .f32) (w1 : Vec Ideal S128x512 .f32) (b1 : Vec Ideal S1x512 .f32) :
    FVec Ideal S1024x512 .f32 :=
  clamp0 (addRow shapeCasts_S1x512_S1x512 broadcasts_S1x512_S1024x512
    (aggregate broadcasts_S1024x1_S1024x512 dot_S1024x1024_S1024x512_S1024x512_0_0_1_1_n_n_wf a
      (prod e w1)) b1)

/-- The second layer before its bias. -/
theorem pay3_eq (a : Vec Ideal S1024x1024 .f32) (e : Vec Ideal S1024x128 .f32) (w1 : Vec Ideal S128x512 .f32) (b1 : Vec Ideal S1x512 .f32)
    (w2 : Vec Ideal S512x128 .f32) :
    k0_pay3 (F := Ideal) a e w1 b1 w2
      = aggregate broadcasts_S1024x1_S1024x128 dot_S1024x1024_S1024x128_S1024x128_0_0_1_1_n_n_wf a
          (prod (hiddenFeatures a e w1 b1) w2) := rfl

/-- The node output: the second layer's bias added, clamped. -/
theorem pay1_eq (z : FVec Ideal S1024x128 .f32) (b2 : Vec Ideal S1x128 .f32) :
    k0_pay1 (F := Ideal) z b2 = clamp0 (addRow shapeCasts_S1x128_S1x128 broadcasts_S1x128_S1024x128 z b2) := rfl

/-- The score output: the two dense layers of the decoder over the node output. -/
theorem pay2_eq (z : FVec Ideal S1024x128 .f32) (b2 : Vec Ideal S1x128 .f32) (f1 : Vec Ideal S128x256 .f32) (c1 : Vec Ideal S1x256 .f32)
    (f2 : Vec Ideal S256x1 .f32) (c2 : Vec Ideal S1x1 .f32) :
    k0_pay2 (F := Ideal) z b2 f1 c1 f2 c2
      = addRow shapeCasts_S1x1_S1x1 broadcasts_S1x1_S1024x1
          (prod
            (clamp0 (addRow shapeCasts_S1x256_S1x256 broadcasts_S1x256_S1024x256
              (prod (k0_pay1 (F := Ideal) z b2) f1) c1)) f2) c2 := rfl

/-! ## Each stage at an entry -/

/-- The degree of node `j` is the sum of column `j` of `Â`. -/
theorem degree_apply (a : Vec Ideal S1024x1024 .f32) (j : Fin 1024) :
    degree a (ix2 j (0 : Fin 1)) = ∑ k : Fin 1024, selfLooped a (ix2 k j) := by
  refine (matmul_col_zero_apply dot_S1024x1024_S1024x1_S1024x1_0_0_1_1_n_n_wf none (selfLooped a) _ j (0 : Fin 1)).trans ?_
  refine Finset.sum_congr rfl fun k _ => ?_
  show selfLooped a (ix2 k j) * Ideal.ofBits .f32 0x3F800000#32 = _
  rw [Cert.Consts.ofBits_one, mul_one]

/-- The inverse square root of the degree, guarded. -/
theorem invSqrtDeg_apply (a : Vec Ideal S1024x1024 .f32) (j : Fin 1024) :
    invSqrtDeg a (ix2 j (0 : Fin 1))
      = Scalar.select (Ideal.cmp .ogt (degree a (ix2 j (0 : Fin 1))) (Ideal.ofBits .f32 0x00000000#32))
          (Ideal.rsqrt (degree a (ix2 j (0 : Fin 1)))) (Ideal.ofBits .f32 0x00000000#32) := rfl

/-- The aggregation at `(p, q)`: node `p`'s factor times the sum over the nodes `k` of `Â k p` times node `k`'s scaled feature. -/
theorem aggregate_apply {C : Nat} (hb : S1024x1.Broadcasts ⟨2, ![1024, C]⟩)
    (wf : DotDims.WF ⟨2, ![1024, 1024]⟩ ⟨2, ![1024, C]⟩ ⟨2, ![1024, C]⟩ [0] [0] [1] [1] [] [])
    (a : Vec Ideal S1024x1024 .f32) (x : FVec Ideal ⟨2, ![1024, C]⟩ .f32) (p : Fin 1024) (q : Fin C) :
    aggregate hb wf a x (ix2 p q)
      = invSqrtDeg a (ix2 p (0 : Fin 1)) * ∑ k : Fin 1024, selfLooped a (ix2 k p) * (invSqrtDeg a (ix2 k (0 : Fin 1)) * x (ix2 k q)) := by
  unfold aggregate
  simp only [matmul]
  rw [mulf_apply, broadcastTo_a1_ab_apply, matmul_col_zero_apply]
  refine congrArg (_ * ·) (Finset.sum_congr rfl fun k _ => ?_)
  rw [mulf_apply, broadcastTo_a1_ab_apply]

/-- The bias row added, at `(p, q)`. -/
theorem addRow_apply {R C : Nat} (hs : (⟨2, ![1, C]⟩ : Shape).ShapeCasts ⟨2, ![1, C]⟩) (hb : (⟨2, ![1, C]⟩ : Shape).Broadcasts ⟨2, ![R, C]⟩)
    (z : FVec Ideal ⟨2, ![R, C]⟩ .f32) (b : Vec Ideal ⟨2, ![1, C]⟩ .f32) (p : Fin R) (q : Fin C) :
    addRow hs hb z b (ix2 p q) = z (ix2 p q) + b (ix2 (0 : Fin 1) q) := by
  show z (ix2 p q) + broadcastTo ⟨2, ![R, C]⟩ (shapeCast ⟨2, ![1, C]⟩ b hs) hb (ix2 p q) = _
  rw [broadcastTo_1b_ab_apply, shapeCast_self]

/-- The clamp, at an index. -/
theorem clamp0_apply {R C : Nat} (z : FVec Ideal ⟨2, ![R, C]⟩ .f32) (i : (⟨2, ![R, C]⟩ : Shape).Idx) :
    clamp0 z i = max (z i) (Ideal.ofBits .f32 0x00000000#32) := rfl

/-- The plain product, at `(p, q)`. -/
theorem prod_apply {M K N : Nat} (x : FVec Ideal ⟨2, ![M, K]⟩ .f32) (w : FVec Ideal ⟨2, ![K, N]⟩ .f32) (p : Fin M) (q : Fin N) :
    prod x w (ix2 p q) = ∑ k : Fin K, x (ix2 p k) * w (ix2 k q) :=
  matmul_plain_zero_apply none x w p q

end Cert.KernelIdeal.Stages

end
-- ==== Proof.KernelRun.lean ====
/-
  The kernel's run, read: with no grid there is one point, every window's block is its whole array, and the two
  output arrays end holding the body's two payloads of the arrays the region finds — the six arguments that are
  matrices as launched, the four biases as the `[1, n]` rows the host reshaped them to.
-/
import proofs.«114461_g70214125355148_fold_wed_m_1087_2_alg».proof.Proof.Gen.KernelIdeal.Value
import proofs.«114461_g70214125355148_fold_wed_m_1087_2_alg».proof.Proof.KernelStages
import Idealize.ShloMosaic.Lib.StableHlo.Run
import Idealize.ShloMosaic.Lib.ValueLayout

noncomputable section

namespace Cert.KernelIdeal.RunValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-! ## Every input block is its array -/

/-- Window 0 takes its array whole. -/
theorem blk0 (c : Dev nD) (t : Fin cfg0.N) : iblk m c 0 t = V m c main_arg0 := by
  funext j
  show V m c main_arg0 (((cfg0.win 0).blk t).view.emb j) = V m c main_arg0 j
  congr 1
  funext a
  apply Fin.ext
  match a with
  | ⟨0, _⟩ => show 0 * 1024 + 1 * (j 0).val = (j 0).val; omega
  | ⟨1, _⟩ => show 0 * 1024 + 1 * (j 1).val = (j 1).val; omega

/-- Window 1 takes its array whole. -/
theorem blk1 (c : Dev nD) (t : Fin cfg0.N) : iblk m c 1 t = V m c main_arg1 := by
  funext j
  show V m c main_arg1 (((cfg0.win 1).blk t).view.emb j) = V m c main_arg1 j
  congr 1
  funext a
  apply Fin.ext
  match a with
  | ⟨0, _⟩ => show 0 * 1024 + 1 * (j 0).val = (j 0).val; omega
  | ⟨1, _⟩ => show 0 * 128 + 1 * (j 1).val = (j 1).val; omega

/-- Window 2 takes its array whole. -/
theorem blk2 (c : Dev nD) (t : Fin cfg0.N) : iblk m c 2 t = V m c main_arg2 := by
  funext j
  show V m c main_arg2 (((cfg0.win 2).blk t).view.emb j) = V m c main_arg2 j
  congr 1
  funext a
  apply Fin.ext
  match a with
  | ⟨0, _⟩ => show 0 * 128 + 1 * (j 0).val = (j 0).val; omega
  | ⟨1, _⟩ => show 0 * 512 + 1 * (j 1).val = (j 1).val; omega

/-- Window 3 takes its array whole. -/
theorem blk3 (c : Dev nD) (t : Fin cfg0.N) : iblk m c 3 t = V m c main_v0 := by
  funext j
  show V m c main_v0 (((cfg0.win 3).blk t).view.emb j) = V m c main_v0 j
  congr 1
  funext a
  apply Fin.ext
  match a with
  | ⟨0, _⟩ => show 0 * 1 + 1 * (j 0).val = (j 0).val; omega
  | ⟨1, _⟩ => show 0 * 512 + 1 * (j 1).val = (j 1).val; omega

/-- Window 4 takes its array whole. -/
theorem blk4 (c : Dev nD) (t : Fin cfg0.N) : iblk m c 4 t = V m c main_arg4 := by
  funext j
  show V m c main_arg4 (((cfg0.win 4).blk t).view.emb j) = V m c main_arg4 j
  congr 1
  funext a
  apply Fin.ext
  match a with
  | ⟨0, _⟩ => show 0 * 512 + 1 * (j 0).val = (j 0).val; omega
  | ⟨1, _⟩ => show 0 * 128 + 1 * (j 1).val = (j 1).val; omega

/-- Window 5 takes its array whole. -/
theorem blk5 (c : Dev nD) (t : Fin cfg0.N) : iblk m c 5 t = V m c main_v1 := by
  funext j
  show V m c main_v1 (((cfg0.win 5).blk t).view.emb j) = V m c main_v1 j
  congr 1
  funext a
  apply Fin.ext
  match a with
  | ⟨0, _⟩ => show 0 * 1 + 1 * (j 0).val = (j 0).val; omega
  | ⟨1, _⟩ => show 0 * 128 + 1 * (j 1).val = (j 1).val; omega

/-- Window 6 takes its array whole. -/
theorem blk6 (c : Dev nD) (t : Fin cfg0.N) : iblk m c 6 t = V m c main_arg6 := by
  funext j
  show V m c main_arg6 (((cfg0.win 6).blk t).view.emb j) = V m c main_arg6 j
  congr 1
  funext a
  apply Fin.ext
  match a with
  | ⟨0, _⟩ => show 0 * 128 + 1 * (j 0).val = (j 0).val; omega
  | ⟨1, _⟩ => show 0 * 256 + 1 * (j 1).val = (j 1).val; omega

/-- Window 7 takes its array whole. -/
theorem blk7 (c : Dev nD) (t : Fin cfg0.N) : iblk m c 7 t = V m c main_v2 := by
  funext j
  show V m c main_v2 (((cfg0.win 7).blk t).view.emb j) = V m c main_v2 j
  congr 1
  funext a
  apply Fin.ext
  match a with
  | ⟨0, _⟩ => show 0 * 1 + 1 * (j 0).val = (j 0).val; omega
  | ⟨1, _⟩ => show 0 * 256 + 1 * (j 1).val = (j 1).val; omega

/-- Window 8 takes its array whole. -/
theorem blk8 (c : Dev nD) (t : Fin cfg0.N) : iblk m c 8 t = V m c main_arg8 := by
  funext j
  show V m c main_arg8 (((cfg0.win 8).blk t).view.emb j) = V m c main_arg8 j
  congr 1
  funext a
  apply Fin.ext
  match a with
  | ⟨0, _⟩ => show 0 * 256 + 1 * (j 0).val = (j 0).val; omega
  | ⟨1, _⟩ => show 0 * 1 + 1 * (j 1).val = (j 1).val; omega

/-- Window 9 takes its array whole. -/
theorem blk9 (c : Dev nD) (t : Fin cfg0.N) : iblk m c 9 t = V m c main_v3 := by
  funext j
  show V m c main_v3 (((cfg0.win 9).blk t).view.emb j) = V m c main_v3 j
  congr 1
  funext a
  apply Fin.ext
  match a with
  | ⟨0, _⟩ => show 0 * 1 + 1 * (j 0).val = (j 0).val; omega
  | ⟨1, _⟩ => show 0 * 1 + 1 * (j 1).val = (j 1).val; omega

/-! ## The reshaped biases -/

/-- The bias the region finds as a `[1, 512]` row is the argument's `[512]` vector, entry by entry. -/
theorem row_v0 (c : Dev nD) (u : Fin 1) (q : Fin 512) :
    (V m c main_v0 : S1x512.Idx → EReal) (ix2 u q) = m ((c : Thread nD τ).loc main_arg3) (ix1 q) := by
  have e : (V m c main_v0 : S1x512.Idx → EReal) = shapeCast S1x512 (m ((c : Thread nD τ).loc main_arg3)) shapeCasts_S512_S1x512 := by
    dsimp only [V, hostOps0]; after_results; rfl
  rw [e]
  exact shapeCast_a_1a_apply _ _ u q

/-- The bias the region finds as a `[1, 128]` row is the argument's `[128]` vector, entry by entry. -/
theorem row_v1 (c : Dev nD) (u : Fin 1) (q : Fin 128) :
    (V m c main_v1 : S1x128.Idx → EReal) (ix2 u q) = m ((c : Thread nD τ).loc main_arg5) (ix1 q) := by
  have e : (V m c main_v1 : S1x128.Idx → EReal) = shapeCast S1x128 (m ((c : Thread nD τ).loc main_arg5)) shapeCasts_S128_S1x128 := by
    dsimp only [V, hostOps0]; after_results; rfl
  rw [e]
  exact shapeCast_a_1a_apply _ _ u q

/-- The bias the region finds as a `[1, 256]` row is the argument's `[256]` vector, entry by entry. -/
theorem row_v2 (c : Dev nD) (u : Fin 1) (q : Fin 256) :
    (V m c main_v2 : S1x256.Idx → EReal) (ix2 u q) = m ((c : Thread nD τ).loc main_arg7) (ix1 q) := by
  have e : (V m c main_v2 : S1x256.Idx → EReal) = shapeCast S1x256 (m ((c : Thread nD τ).loc main_arg7)) shapeCasts_S256_S1x256 := by
    dsimp only [V, hostOps0]; after_results; rfl
  rw [e]
  exact shapeCast_a_1a_apply _ _ u q

/-- The bias the region finds as a `[1, 1]` row is the argument's `[1]` vector, entry by entry. -/
theorem row_v3 (c : Dev nD) (u : Fin 1) (q : Fin 1) :
    (V m c main_v3 : S1x1.Idx → EReal) (ix2 u q) = m ((c : Thread nD τ).loc main_arg9) (ix1 q) := by
  have e : (V m c main_v3 : S1x1.Idx → EReal) = shapeCast S1x1 (m ((c : Thread nD τ).loc main_arg9)) shapeCasts_S1_S1x1 := by
    dsimp only [V, hostOps0]; after_results; rfl
  rw [e]
  exact shapeCast_a_1a_apply _ _ u q

/-! ## The two output arrays -/

/-- The node output, of the arrays the region finds. -/
def nodeOut (c : Dev nD) : S1024x128.Idx → EReal :=
  k0_pay1 (F := Ideal) (k0_pay3 (V m c main_arg0) (V m c main_arg1) (V m c main_arg2) (V m c main_v0) (V m c main_arg4)) (V m c main_v1)

/-- The score output, of the arrays the region finds. -/
def scoreOut (c : Dev nD) : S1024x1.Idx → EReal :=
  k0_pay2 (F := Ideal) (k0_pay3 (V m c main_arg0) (V m c main_arg1) (V m c main_arg2) (V m c main_v0) (V m c main_arg4)) (V m c main_v1)
    (V m c main_arg6) (V m c main_v2) (V m c main_arg8) (V m c main_v3)

/-- What the one point writes back to the node output's array. -/
theorem flushed10_eq (c : Dev nD) (t : Fin cfg0.N) :
    (dats m 0 c).flushed 10 t = ((cfg0.win 10).blk t).view.read (Elt Ideal) (nodeOut m c) := by
  rw [flushed10]
  unfold out0_10
  rw [View.canon_unit_zero zero_off]
  simp only [View.ld_unit_zero (S := S1024x1024) zero_off, View.ld_unit_zero (S := S1024x128) zero_off, View.ld_unit_zero (S := S128x512) zero_off,
    View.ld_unit_zero (S := S1x512) zero_off, View.ld_unit_zero (S := S512x128) zero_off, View.ld_unit_zero (S := S1x128) zero_off]
  rw [blk0, blk1, blk2, blk3, blk4, blk5]
  funext j
  show nodeOut m c j = nodeOut m c (((cfg0.win 10).blk t).view.emb j)
  congr 1
  funext a
  apply Fin.ext
  match a with
  | ⟨0, _⟩ => show (j 0).val = 0 * 1024 + 1 * (j 0).val; omega
  | ⟨1, _⟩ => show (j 1).val = 0 * 128 + 1 * (j 1).val; omega

/-- What the one point writes back to the score output's array. -/
theorem flushed11_eq (c : Dev nD) (t : Fin cfg0.N) :
    (dats m 0 c).flushed 11 t = ((cfg0.win 11).blk t).view.read (Elt Ideal) (scoreOut m c) := by
  rw [flushed11]
  unfold out0_11
  rw [View.canon_unit_zero zero_off]
  simp only [View.ld_unit_zero (S := S1024x1024) zero_off, View.ld_unit_zero (S := S1024x128) zero_off, View.ld_unit_zero (S := S128x512) zero_off,
    View.ld_unit_zero (S := S1x512) zero_off, View.ld_unit_zero (S := S512x128) zero_off, View.ld_unit_zero (S := S1x128) zero_off,
    View.ld_unit_zero (S := S128x256) zero_off, View.ld_unit_zero (S := S1x256) zero_off, View.ld_unit_zero (S := S256x1) zero_off,
    View.ld_unit_zero (S := S1x1) zero_off]
  rw [blk0, blk1, blk2, blk3, blk4, blk5, blk6, blk7, blk8, blk9]
  funext j
  show scoreOut m c j = scoreOut m c (((cfg0.win 11).blk t).view.emb j)
  congr 1
  funext a
  apply Fin.ext
  match a with
  | ⟨0, _⟩ => show (j 0).val = 0 * 1024 + 1 * (j 0).val; omega
  | ⟨1, _⟩ => show (j 1).val = 0 * 1 + 1 * (j 1).val; omega

/-- The one point's block is the whole node-output array. -/
theorem cover10 (i : S1024x128.Idx) : ∃ t : Fin cfg0.N, (cfg0.win 10).flush t = true ∧ i ∈ ((cfg0.win 10).blk t).view.set := by
  refine ⟨t0_0, flush0_10 t0_0, ?_⟩
  show i ∈ ((View.whole main_v4_0).slice (win0_10.rect t0_0)).set
  rw [View.set_slice_whole, Rect.mem_set_unit]
  intro a
  have h0 : (i 0 : Nat) < 1024 := (i 0).isLt
  have h1 : (i 1 : Nat) < 128 := (i 1).isLt
  match a with
  | ⟨0, _⟩ => show 0 * 1024 ≤ (i 0 : Nat) ∧ (i 0 : Nat) < 0 * 1024 + 1024; omega
  | ⟨1, _⟩ => show 0 * 128 ≤ (i 1 : Nat) ∧ (i 1 : Nat) < 0 * 128 + 128; omega

/-- The one point's block is the whole score-output array. -/
theorem cover11 (i : S1024x1.Idx) : ∃ t : Fin cfg0.N, (cfg0.win 11).flush t = true ∧ i ∈ ((cfg0.win 11).blk t).view.set := by
  refine ⟨t0_0, flush0_11 t0_0, ?_⟩
  show i ∈ ((View.whole main_v4_1).slice (win0_11.rect t0_0)).set
  rw [View.set_slice_whole, Rect.mem_set_unit]
  intro a
  have h0 : (i 0 : Nat) < 1024 := (i 0).isLt
  have h1 : (i 1 : Nat) < 1 := (i 1).isLt
  match a with
  | ⟨0, _⟩ => show 0 * 1024 ≤ (i 0 : Nat) ∧ (i 0 : Nat) < 0 * 1024 + 1024; omega
  | ⟨1, _⟩ => show 0 * 1 ≤ (i 1 : Nat) ∧ (i 1 : Nat) < 0 * 1 + 1; omega

/-- After the run the node-output array holds the first payload. -/
theorem final10 (c : Dev nD) : (dats m 0 c).arrAt 10 cfg0.N = nodeOut m c :=
  (dats m 0 c).arrAt_eq_of_cover 10 (nodeOut m c) (fun t _ => flushed10_eq m c t) cover10

/-- After the run the score-output array holds the second payload. -/
theorem final11 (c : Dev nD) : (dats m 0 c).arrAt 11 cfg0.N = scoreOut m c :=
  (dats m 0 c).arrAt_eq_of_cover 11 (scoreOut m c) (fun t _ => flushed11_eq m c t) cover11

/-- The run re-posted: each output array at its payload, the arguments unchanged. -/
theorem run : θ_run defs (onTc (τ := τ) (main (F := Ideal))) ⟨m, fun _ => 0, ρ⟩ fun r => ∀ c : Dev nD,
      r.2.mem ((c : Thread nD τ).loc main_v4_0) = nodeOut m c
      ∧ r.2.mem ((c : Thread nD τ).loc main_v4_1) = scoreOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Cert.KernelIdeal.Value.run_blocks m ρ)

end Cert.KernelIdeal.RunValue

end
-- ==== Proof.Scalars.lean ====
/-
  Two scalar facts on the extended reals.
  * Adding a self loop twice is adding `2` on the diagonal: for a one-bit flag `b`, `(x + b) + b = x + (b ? 2 : 0)`.
  * Under the guard `d > 0` the reciprocal of the square root is the reciprocal square root: for a positive real both
    are `(√d)⁻¹`, at `+∞` both are `0`; where the guard fails both sides select `0`.
-/
import Idealize.ShloMosaic.PureOps.Ideal
import Idealize.ShloMosaic.Lib.ValueIdx
import proofs.«114461_g70214125355148_fold_wed_m_1087_2_alg».proof.Proof.Consts

noncomputable section

namespace Cert.Scalars

open Idealize.ShloMosaic Idealize.ShloMosaic.ValueIdx

/-- A flag added twice is `2` where it is set and `0` where it is not. -/
theorem add_flag_twice (x : EReal) (b : BitVec 1) :
    (x + FloatOps.uitofp (F := Ideal) .f32 b) + FloatOps.uitofp (F := Ideal) .f32 b
      = x + Scalar.select b (Ideal.ofBits .f32 0x40000000#32) (Ideal.ofBits .f32 0x00000000#32) := by
  by_cases h : b = 1#1
  · subst h
    rw [select_one, Cert.Consts.uitofp_one, Cert.Consts.ofBits_two, add_assoc]
    norm_num
  · have h0 := eq_zero_of_ne_one h
    subst h0
    rw [select_zero, Cert.Consts.uitofp_zero, Cert.Consts.ofBits_zero, add_zero]

/-- On the positive extended reals, `1 / √d` is the reciprocal square root. -/
theorem one_div_sqrt (d : EReal) (h : 0 < d) : Ideal.div 1 (Ideal.sqrt d) = Ideal.rsqrt d := by
  induction d using EReal.rec with
  | bot => exact absurd h (by simp)
  | top =>
    rw [Ideal.sqrt_top, Ideal.rsqrt_top, Ideal.div, if_neg (by simp)]
    simp
  | coe r =>
    have hr : 0 < r := by exact_mod_cast h
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div_coe hs, one_mul, one_div]

/-- The guarded inverse square root, written with a quotient or with the reciprocal square root: one value. -/
theorem guarded_inv_sqrt (d : EReal) :
    Scalar.select (Ideal.cmp .ogt d (Ideal.ofBits .f32 0x00000000#32))
        (Ideal.div (Ideal.ofBits .f32 0x3F800000#32) (Ideal.sqrt d)) (Ideal.ofBits .f32 0x00000000#32)
      = Scalar.select (Ideal.cmp .ogt d (Ideal.ofBits .f32 0x00000000#32)) (Ideal.rsqrt d) (Ideal.ofBits .f32 0x00000000#32) := by
  rw [Cert.Consts.ofBits_zero, Cert.Consts.ofBits_one]
  by_cases h : 0 < d
  · rw [one_div_sqrt d h]
  · have hc : Ideal.cmp .ogt d 0 = 0#1 := by simp [Ideal.cmp, h]
    rw [hc, select_zero, select_zero]

end Cert.Scalars

end
-- ==== Proof.Bridge.lean ====
/-
  The reference's stages are the kernel's stages.
  The reference adds the identity twice, sums the columns of `Â` with a reduction, takes `1 / √deg` under the guard
  `deg > 0`, and forms `dis ⊙ (transpose Â · (dis ⊙ X))` with an explicit transpose; the kernel adds `2` on the diagonal,
  sums the columns as the product `Âᵀ · 1`, takes the reciprocal square root under the same guard, and contracts the row
  axis of `Â` directly. Stage by stage, entry by entry, the two are one value.
-/
import proofs.«114461_g70214125355148_fold_wed_m_1087_2_alg».proof.Proof.Gen.ReferenceIdeal.Read
import proofs.«114461_g70214125355148_fold_wed_m_1087_2_alg».proof.Proof.KernelStages
import proofs.«114461_g70214125355148_fold_wed_m_1087_2_alg».proof.Proof.Scalars

noncomputable section

open scoped BigOperators

namespace Cert.Bridge

open Idealize.ShloMosaic Idealize.ShloMosaic.ValueIdx
open Cert.ReferenceIdeal.Read Cert.KernelIdeal.Stages

/-- Two indices of a rank-one shape with the same coordinate are equal; likewise at rank two. -/
local macro "idx1" : tactic => `(tactic| exact funext fun b => Fin.ext (by match b with | ⟨0, _⟩ => rfl))
local macro "idx2" : tactic => `(tactic| exact funext fun b => Fin.ext (by match b with | ⟨0, _⟩ => rfl | ⟨1, _⟩ => rfl))

/-- The arrays both programs take, at the ideal values. -/
abbrev Mat (r c : Nat) : Type := FVec Ideal ⟨2, ![r, c]⟩ .f32
abbrev Row (n : Nat) : Type := FVec Ideal ⟨1, ![n]⟩ .f32

/-! ## The adjacency with both self loops, its degrees, and their inverse square roots -/

/-- The identity added twice is `2` added on the diagonal. -/
theorem selfLooped_eq (a : Mat 1024 1024) : val_main_v13 (F := Ideal) a = selfLooped a := by
  funext i
  have e0 : IntOp.addi (BitVec.ofNat 32 (i 0).val) 0#32 = BitVec.ofNat 32 (i 0).val := BitVec.add_zero _
  show (a i + FloatOps.uitofp (F := Ideal) .f32 (IntOp.cmpi .eq (IntOp.addi (BitVec.ofNat 32 (i 0).val) 0#32) (BitVec.ofNat 32 (i 1).val)))
      + FloatOps.uitofp (F := Ideal) .f32 (IntOp.cmpi .eq (IntOp.addi (BitVec.ofNat 32 (i 0).val) 0#32) (BitVec.ofNat 32 (i 1).val))
    = a i + Scalar.select (IntOp.cmpi .eq (BitVec.ofNat 32 (0 * 1024 + (i 0).val)) (BitVec.ofNat 32 (0 * 1024 + (i 1).val)))
        (Ideal.ofBits .f32 0x40000000#32) (Ideal.ofBits .f32 0x00000000#32)
  rw [e0, Nat.zero_mul, Nat.zero_add, Nat.zero_add]
  exact Cert.Scalars.add_flag_twice _ _

/-- The second convolution builds the same matrix. -/
theorem selfLooped_eq' (a : Mat 1024 1024) : val_main_v40 (F := Ideal) a = val_main_v13 (F := Ideal) a := rfl

/-- The reduction over the rows is the column sum. -/
theorem degree_eq (a : Mat 1024 1024) (j : Fin 1024) : val_main_v14 (F := Ideal) a (ix1 j) = degree a (ix2 j (0 : Fin 1)) := by
  rw [val_main_v14_apply, degree_apply, selfLooped_eq]
  show Ideal.ofBits .f32 0x00000000#32 + _ = _
  rw [Cert.Consts.ofBits_zero, zero_add]
  refine Finset.sum_congr rfl fun k _ => congrArg (selfLooped a) (funext fun b => Fin.ext ?_)
  match b with
  | ⟨0, _⟩ => rfl
  | ⟨1, _⟩ => rfl

theorem degree_eq' (a : Mat 1024 1024) : val_main_v41 (F := Ideal) a = val_main_v14 (F := Ideal) a := rfl

/-- The guarded `1 / √deg` is the guarded reciprocal square root. -/
theorem invSqrtDeg_eq (a : Mat 1024 1024) (j : Fin 1024) : val_main_v20 (F := Ideal) a (ix1 j) = invSqrtDeg a (ix2 j (0 : Fin 1)) := by
  rw [invSqrtDeg_apply, ← degree_eq]
  exact Cert.Scalars.guarded_inv_sqrt _

theorem invSqrtDeg_eq' (a : Mat 1024 1024) : val_main_v47 (F := Ideal) a = val_main_v20 (F := Ideal) a := rfl

/-- The factor broadcast over 512 columns, as the product's left factor and as the outer factor. -/
theorem scale512_inner (a : Mat 1024 1024) (p : Fin 1024) (q : Fin 512) :
    val_main_v25 (F := Ideal) a (ix2 p q) = invSqrtDeg a (ix2 p (0 : Fin 1)) := by
  rw [val_main_v25_apply, val_main_v24_apply, show idx_main_v24 (idx_main_v25 (ix2 p q)) = ix1 p by idx1]
  exact invSqrtDeg_eq a p

theorem scale512_outer (a : Mat 1024 1024) (p : Fin 1024) (q : Fin 512) :
    val_main_v28 (F := Ideal) a (ix2 p q) = invSqrtDeg a (ix2 p (0 : Fin 1)) := by
  rw [val_main_v28_apply, val_main_v22_apply, show idx_main_v22 (idx_main_v28 (ix2 p q)) = ix1 p by idx1]
  exact invSqrtDeg_eq a p

/-- The same over 128 columns, in the second convolution. -/
theorem scale128_inner (a : Mat 1024 1024) (p : Fin 1024) (q : Fin 128) :
    val_main_v52 (F := Ideal) a (ix2 p q) = invSqrtDeg a (ix2 p (0 : Fin 1)) := by
  rw [val_main_v52_apply, val_main_v51_apply, show idx_main_v51 (idx_main_v52 (ix2 p q)) = ix1 p by idx1, invSqrtDeg_eq']
  exact invSqrtDeg_eq a p

theorem scale128_outer (a : Mat 1024 1024) (p : Fin 1024) (q : Fin 128) :
    val_main_v55 (F := Ideal) a (ix2 p q) = invSqrtDeg a (ix2 p (0 : Fin 1)) := by
  rw [val_main_v55_apply, val_main_v49_apply, show idx_main_v49 (idx_main_v55 (ix2 p q)) = ix1 p by idx1, invSqrtDeg_eq']
  exact invSqrtDeg_eq a p

/-! ## The first convolution -/

/-- The features times the first weights. -/
theorem features1_eq (e : Mat 1024 128) (w1 : Mat 128 512) : val_main_v21 (F := Ideal) e w1 = prod e w1 := by
  funext i
  obtain ⟨p, q, rfl⟩ : ∃ (p : Fin 1024) (q : Fin 512), i = ix2 p q := ⟨i 0, i 1, eq_ix2 i⟩
  rw [val_main_v21_apply, prod_apply]
  refine Finset.sum_congr rfl fun k _ => ?_
  rw [show lidx_main_v21 (ix2 p q) k = ix2 p k by idx2, show ridx_main_v21 (ix2 p q) k = ix2 k q by idx2]

/-- The first convolution's normalized aggregation: the explicit transpose read back makes the two sums one. -/
theorem aggregate1_eq (hb : Cert.KernelIdeal.S1024x1.Broadcasts ⟨2, ![1024, 512]⟩)
    (wf : DotDims.WF ⟨2, ![1024, 1024]⟩ ⟨2, ![1024, 512]⟩ ⟨2, ![1024, 512]⟩ [0] [0] [1] [1] [] [])
    (a : Mat 1024 1024) (e : Mat 1024 128) (w1 : Mat 128 512) :
    val_main_v29 (F := Ideal) a e w1 = aggregate hb wf a (prod e w1) := by
  funext i
  obtain ⟨p, q, rfl⟩ : ∃ (p : Fin 1024) (q : Fin 512), i = ix2 p q := ⟨i 0, i 1, eq_ix2 i⟩
  rw [aggregate_apply]
  show val_main_v28 (F := Ideal) a (ix2 p q) * val_main_v27 (F := Ideal) a e w1 (ix2 p q) = _
  rw [scale512_outer, val_main_v27_apply]
  refine congrArg (_ * ·) (Finset.sum_congr rfl fun k _ => ?_)
  rw [show lidx_main_v27 (ix2 p q) k = ix2 p k by idx2, show ridx_main_v27 (ix2 p q) k = ix2 k q by idx2,
    val_main_v23_apply, show idx_main_v23 (ix2 p k) = ix2 k p by idx2, selfLooped_eq]
  show _ * (val_main_v25 (F := Ideal) a (ix2 k q) * val_main_v21 (F := Ideal) e w1 (ix2 k q)) = _
  rw [scale512_inner, features1_eq]

/-- The hidden features: the bias added (a vector on one side, the reshaped row on the other), clamped at `0`. -/
theorem hiddenFeatures_eq (a : Mat 1024 1024) (e : Mat 1024 128) (w1 : Mat 128 512) (b1 : Row 512) (b1row : Mat 1 512)
    (hb1 : ∀ (u : Fin 1) (q : Fin 512), b1row (ix2 u q) = b1 (ix1 q)) :
    val_main_v33 (F := Ideal) a e w1 b1 = hiddenFeatures a e w1 b1row := by
  funext i
  obtain ⟨p, q, rfl⟩ : ∃ (p : Fin 1024) (q : Fin 512), i = ix2 p q := ⟨i 0, i 1, eq_ix2 i⟩
  unfold hiddenFeatures
  rw [clamp0_apply, addRow_apply, ← aggregate1_eq, hb1]
  show max (val_main_v29 (F := Ideal) a e w1 (ix2 p q) + val_main_v31 (F := Ideal) b1 (ix2 p q)) (Ideal.ofBits .f32 0x00000000#32) = _
  rw [val_main_v31_apply, val_main_v30_apply, show idx_main_v30 (idx_main_v31 (ix2 p q)) = ix1 q by idx1]

/-! ## The second convolution -/

/-- The hidden features times the second weights. -/
theorem features2_eq (a : Mat 1024 1024) (e : Mat 1024 128) (w1 : Mat 128 512) (b1 : Row 512) (b1row : Mat 1 512)
    (hb1 : ∀ (u : Fin 1) (q : Fin 512), b1row (ix2 u q) = b1 (ix1 q)) (w2 : Mat 512 128) :
    val_main_v48 (F := Ideal) a e w1 b1 w2 = prod (hiddenFeatures a e w1 b1row) w2 := by
  funext i
  obtain ⟨p, q, rfl⟩ : ∃ (p : Fin 1024) (q : Fin 128), i = ix2 p q := ⟨i 0, i 1, eq_ix2 i⟩
  rw [val_main_v48_apply, prod_apply]
  refine Finset.sum_congr rfl fun k _ => ?_
  rw [show lidx_main_v48 (ix2 p q) k = ix2 p k by idx2, show ridx_main_v48 (ix2 p q) k = ix2 k q by idx2,
    hiddenFeatures_eq a e w1 b1 b1row hb1]

/-- The second convolution's normalized aggregation is the body's first payload. -/
theorem aggregate2_eq (a : Mat 1024 1024) (e : Mat 1024 128) (w1 : Mat 128 512) (b1 : Row 512) (b1row : Mat 1 512)
    (hb1 : ∀ (u : Fin 1) (q : Fin 512), b1row (ix2 u q) = b1 (ix1 q)) (w2 : Mat 512 128) :
    val_main_v56 (F := Ideal) a e w1 b1 w2 = Cert.KernelIdeal.Gen.k0_pay3 (F := Ideal) a e w1 b1row w2 := by
  rw [pay3_eq]
  funext i
  obtain ⟨p, q, rfl⟩ : ∃ (p : Fin 1024) (q : Fin 128), i = ix2 p q := ⟨i 0, i 1, eq_ix2 i⟩
  rw [aggregate_apply]
  show val_main_v55 (F := Ideal) a (ix2 p q) * val_main_v54 (F := Ideal) a e w1 b1 w2 (ix2 p q) = _
  rw [scale128_outer, val_main_v54_apply]
  refine congrArg (_ * ·) (Finset.sum_congr rfl fun k _ => ?_)
  rw [show lidx_main_v54 (ix2 p q) k = ix2 p k by idx2, show ridx_main_v54 (ix2 p q) k = ix2 k q by idx2,
    val_main_v50_apply, show idx_main_v50 (ix2 p k) = ix2 k p by idx2, selfLooped_eq', selfLooped_eq]
  show _ * (val_main_v52 (F := Ideal) a (ix2 k q) * val_main_v48 (F := Ideal) a e w1 b1 w2 (ix2 k q)) = _
  rw [scale128_inner, features2_eq a e w1 b1 b1row hb1 w2]

/-- The node output: the first result of both programs. -/
theorem nodeOut_eq (a : Mat 1024 1024) (e : Mat 1024 128) (w1 : Mat 128 512) (b1 : Row 512) (b1row : Mat 1 512)
    (hb1 : ∀ (u : Fin 1) (q : Fin 512), b1row (ix2 u q) = b1 (ix1 q)) (w2 : Mat 512 128) (b2 : Row 128) (b2row : Mat 1 128)
    (hb2 : ∀ (u : Fin 1) (q : Fin 128), b2row (ix2 u q) = b2 (ix1 q)) :
    val_main_v60 (F := Ideal) a e w1 b1 w2 b2
      = Cert.KernelIdeal.Gen.k0_pay1 (F := Ideal) (Cert.KernelIdeal.Gen.k0_pay3 (F := Ideal) a e w1 b1row w2) b2row := by
  rw [pay1_eq]
  funext i
  obtain ⟨p, q, rfl⟩ : ∃ (p : Fin 1024) (q : Fin 128), i = ix2 p q := ⟨i 0, i 1, eq_ix2 i⟩
  rw [clamp0_apply, addRow_apply, ← aggregate2_eq a e w1 b1 b1row hb1 w2, hb2]
  show max (val_main_v56 (F := Ideal) a e w1 b1 w2 (ix2 p q) + val_main_v58 (F := Ideal) b2 (ix2 p q)) (Ideal.ofBits .f32 0x00000000#32) = _
  rw [val_main_v58_apply, val_main_v57_apply, show idx_main_v57 (idx_main_v58 (ix2 p q)) = ix1 q by idx1]

/-! ## The decoder -/

/-- The decoder's hidden layer over the node output. -/
theorem decoderHidden_eq (hs : (⟨2, ![1, 256]⟩ : Shape).ShapeCasts ⟨2, ![1, 256]⟩) (hb : (⟨2, ![1, 256]⟩ : Shape).Broadcasts ⟨2, ![1024, 256]⟩)
    (a : Mat 1024 1024) (e : Mat 1024 128) (w1 : Mat 128 512) (b1 : Row 512) (b1row : Mat 1 512)
    (hb1 : ∀ (u : Fin 1) (q : Fin 512), b1row (ix2 u q) = b1 (ix1 q)) (w2 : Mat 512 128) (b2 : Row 128) (b2row : Mat 1 128)
    (hb2 : ∀ (u : Fin 1) (q : Fin 128), b2row (ix2 u q) = b2 (ix1 q)) (f1 : Mat 128 256) (c1 : Row 256) (c1row : Mat 1 256)
    (hc1 : ∀ (u : Fin 1) (q : Fin 256), c1row (ix2 u q) = c1 (ix1 q)) :
    val_main_v65 (F := Ideal) a e w1 b1 w2 b2 f1 c1
      = clamp0 (addRow hs hb
          (prod (Cert.KernelIdeal.Gen.k0_pay1 (F := Ideal) (Cert.KernelIdeal.Gen.k0_pay3 (F := Ideal) a e w1 b1row w2) b2row) f1) c1row) := by
  funext i
  obtain ⟨p, q, rfl⟩ : ∃ (p : Fin 1024) (q : Fin 256), i = ix2 p q := ⟨i 0, i 1, eq_ix2 i⟩
  rw [clamp0_apply, addRow_apply, prod_apply, hc1]
  show max (val_main_v61 (F := Ideal) a e w1 b1 w2 b2 f1 (ix2 p q) + val_main_v63 (F := Ideal) c1 (ix2 p q)) (Ideal.ofBits .f32 0x00000000#32) = _
  rw [val_main_v61_apply, val_main_v63_apply, val_main_v62_apply, show idx_main_v62 (idx_main_v63 (ix2 p q)) = ix1 q by idx1]
  refine congrArg (fun s => max (s + _) _) (Finset.sum_congr rfl fun k _ => ?_)
  rw [show lidx_main_v61 (ix2 p q) k = ix2 p k by idx2, show ridx_main_v61 (ix2 p q) k = ix2 k q by idx2,
    nodeOut_eq a e w1 b1 b1row hb1 w2 b2 b2row hb2]

/-- The score output: the second result of both programs. -/
theorem scoreOut_eq (a : Mat 1024 1024) (e : Mat 1024 128) (w1 : Mat 128 512) (b1 : Row 512) (b1row : Mat 1 512)
    (hb1 : ∀ (u : Fin 1) (q : Fin 512), b1row (ix2 u q) = b1 (ix1 q)) (w2 : Mat 512 128) (b2 : Row 128) (b2row : Mat 1 128)
    (hb2 : ∀ (u : Fin 1) (q : Fin 128), b2row (ix2 u q) = b2 (ix1 q)) (f1 : Mat 128 256) (c1 : Row 256) (c1row : Mat 1 256)
    (hc1 : ∀ (u : Fin 1) (q : Fin 256), c1row (ix2 u q) = c1 (ix1 q)) (f2 : Mat 256 1) (c2 : Row 1) (c2row : Mat 1 1)
    (hc2 : ∀ (u : Fin 1) (q : Fin 1), c2row (ix2 u q) = c2 (ix1 q)) :
    val_main_v69 (F := Ideal) a e w1 b1 w2 b2 f1 c1 f2 c2
      = Cert.KernelIdeal.Gen.k0_pay2 (F := Ideal) (Cert.KernelIdeal.Gen.k0_pay3 (F := Ideal) a e w1 b1row w2) b2row f1 c1row f2 c2row := by
  rw [pay2_eq]
  funext i
  obtain ⟨p, q, rfl⟩ : ∃ (p : Fin 1024) (q : Fin 1), i = ix2 p q := ⟨i 0, i 1, eq_ix2 i⟩
  rw [addRow_apply, prod_apply, hc2]
  show val_main_v66 (F := Ideal) a e w1 b1 w2 b2 f1 c1 f2 (ix2 p q) + val_main_v68 (F := Ideal) c2 (ix2 p q) = _
  have hq : idx_main_v67 (idx_main_v68 (ix2 p q)) = ix1 q := funext fun b => Fin.ext (by
    match b with
    | ⟨0, _⟩ => show 0 = q.val; omega)
  rw [val_main_v66_apply, val_main_v68_apply, val_main_v67_apply, hq]
  refine congrArg (· + _) (Finset.sum_congr rfl fun k _ => ?_)
  rw [show lidx_main_v66 (ix2 p q) k = ix2 p k by idx2, show ridx_main_v66 (ix2 p q) k = ix2 k q by idx2,
    decoderHidden_eq _ _ a e w1 b1 b1row hb1 w2 b2 b2row hb2 f1 c1 c1row hc1]

end Cert.Bridge

end
-- ==== Proof.lean ====
/-
  A two-layer graph convolution with a dense decoder, fused in one kernel, against its plain reference.
  With `A` the adjacency, both programs form `Â = A + 2·I`, the column sums `deg` of `Â`, and
  `dis = deg ^ (-1/2)` where `deg > 0` (else `0`); a convolution of features `X` with weights `W` and bias `b` is
  `max (dis ⊙ (Âᵀ · (dis ⊙ (X · W))) + b, 0)`. The node output is two convolutions of the embeddings; the score
  output is `max (node · F₁ + c₁, 0) · F₂ + c₂`.
  The two programs differ only in spelling: the identity added twice against `2` on the diagonal; a reduction
  against a product with a column of ones; `1 / √deg` against the reciprocal square root, equal on every extended real
  under the guard; an explicit transpose against a contraction of the row axis; bias vectors broadcast against bias
  rows the host reshaped. None of these needs the inputs finite: the precondition is never opened.
  The kernel's run gives each output array as the body's payload of the argument arrays (one grid point, every block
  the whole array); the reference's run gives each result as the composed term of its operations; the two are equal
  entry by entry, stage by stage.
-/
import proofs.«114461_g70214125355148_fold_wed_m_1087_2_alg».proof.Defs
import proofs.«114461_g70214125355148_fold_wed_m_1087_2_alg».proof.Proof.Gen.Kernel
import proofs.«114461_g70214125355148_fold_wed_m_1087_2_alg».proof.Proof.Gen.Kernel.Skeleton
import proofs.«114461_g70214125355148_fold_wed_m_1087_2_alg».proof.Proof.Gen.Kernel.Launch
import proofs.«114461_g70214125355148_fold_wed_m_1087_2_alg».proof.Proof.Gen.Kernel.Points
import proofs.«114461_g70214125355148_fold_wed_m_1087_2_alg».proof.Proof.Gen.Kernel.Frame
import proofs.«114461_g70214125355148_fold_wed_m_1087_2_alg».proof.Proof.Gen.KernelIdeal
import proofs.«114461_g70214125355148_fold_wed_m_1087_2_alg».proof.Proof.Gen.KernelIdeal.Skeleton
import proofs.«114461_g70214125355148_fold_wed_m_1087_2_alg».proof.Proof.Gen.KernelIdeal.Launch
import proofs.«114461_g70214125355148_fold_wed_m_1087_2_alg».proof.Proof.Gen.KernelIdeal.Points
import proofs.«114461_g70214125355148_fold_wed_m_1087_2_alg».proof.Proof.Gen.KernelIdeal.Frame
import proofs.«114461_g70214125355148_fold_wed_m_1087_2_alg».proof.Proof.Gen.ReferenceIdeal
import proofs.«114461_g70214125355148_fold_wed_m_1087_2_alg».proof.Proof.Gen.Pre_finite_inputs
import proofs.«114461_g70214125355148_fold_wed_m_1087_2_alg».proof.Proof.Gen.KernelIdeal.Value
import proofs.«114461_g70214125355148_fold_wed_m_1087_2_alg».proof.Proof.Gen.ReferenceIdeal.Run
import proofs.«114461_g70214125355148_fold_wed_m_1087_2_alg».proof.Proof.Gen.ReferenceIdeal.Read
import proofs.«114461_g70214125355148_fold_wed_m_1087_2_alg».proof.Proof.KernelRun
import proofs.«114461_g70214125355148_fold_wed_m_1087_2_alg».proof.Proof.Bridge
import Idealize.ShloMosaic.Adequacy
import Idealize.ShloMosaic.Init

noncomputable section

namespace Cert.Proof

open Idealize.ShloMosaic Idealize.ShloMosaic.TcCoe Idealize.SL.Sem

/-! ## The two results, as functions of the argument arrays as launched -/

section Results

open Cert.KernelIdeal Cert.KernelIdeal.Gen

variable (m : (ℓ : Loc nD τ sig) → Buf (Elt Ideal) ℓ)

/-- The reference's first result, of the kernel's argument arrays, is the array the kernel's run leaves. -/
theorem node_eq (c : Dev nD) :
    Cert.ReferenceIdeal.Read.val_main_v60 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      = Cert.KernelIdeal.RunValue.nodeOut m c := by
  unfold Cert.KernelIdeal.RunValue.nodeOut
  rw [V_main_arg0, V_main_arg1, V_main_arg2, V_main_arg4]
  exact Cert.Bridge.nodeOut_eq _ _ _ _ (V m c main_v0) (Cert.KernelIdeal.RunValue.row_v0 m c) _ _ (V m c main_v1)
    (Cert.KernelIdeal.RunValue.row_v1 m c)

/-- The reference's second result, of the kernel's argument arrays, is the array the kernel's run leaves. -/
theorem score_eq (c : Dev nD) :
    Cert.ReferenceIdeal.Read.val_main_v69 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9))
      = Cert.KernelIdeal.RunValue.scoreOut m c := by
  unfold Cert.KernelIdeal.RunValue.scoreOut
  rw [V_main_arg0, V_main_arg1, V_main_arg2, V_main_arg4, V_main_arg6, V_main_arg8]
  exact Cert.Bridge.scoreOut_eq _ _ _ _ (V m c main_v0) (Cert.KernelIdeal.RunValue.row_v0 m c) _ _ (V m c main_v1)
    (Cert.KernelIdeal.RunValue.row_v1 m c) _ _ (V m c main_v2) (Cert.KernelIdeal.RunValue.row_v2 m c) _ _ (V m c main_v3)
    (Cert.KernelIdeal.RunValue.row_v3 m c)

end Results

/-! ## The claims -/

/-- The kernel as printed runs and leaves its arguments as launched. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference's run, its results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, both programs end with the same two results. -/
theorem algebraic : Cert.algebraic_KernelIdeal_ReferenceIdeal := by
  intro m ρ m' ρ' _ hagree
  refine ⟨fun c => Cert.KernelIdeal.RunValue.nodeOut m c, fun c => Cert.KernelIdeal.RunValue.scoreOut m c,
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    rw [Cert.ReferenceIdeal.Read.val_main_v60_eq, h0, h1, h2, h3, h4, h5]
    exact node_eq m c
  · obtain ⟨h0, h1, h2, h3, h4, h5, h6, h7, h8, h9⟩ := hagree c
    rw [Cert.ReferenceIdeal.Read.val_main_v69_eq, h0, h1, h2, h3, h4, h5, h6, h7, h8, h9]
    exact score_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
